-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x8 : Shape := ⟨2, ![8388608, 8]⟩
abbrev S8388608x1 : Shape := ⟨2, ![8388608, 1]⟩
abbrev S_ : Shape := ⟨0, ![]⟩

class Facts : Prop where
  bcast_S_S8388608x8 : S_.BroadcastsInDim S8388608x8 (![] : Fin 0 → Fin S8388608x8.rank)
  reducesTo_S8388608x8_S_d0_1 : S8388608x8.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn {F : FTy → Type} [FloatOps F] (main_arg0 : FVec F S8388608x8 .f32) (main_arg1 : FVec F S8388608x8 .f32) (main_arg2 : FVec F S8388608x1 .f32) : IVec S_ 1 :=
  let main_v0 : FVec F S8388608x8 .f32 := Host.absf main_arg0
  let main_cst : FVec F S_ .f32 := constant S_ .f32 0x7F800000#32
  let main_v1 : FVec F S8388608x8 .f32 := broadcastInDim S8388608x8 ![] bcast_S_S8388608x8 main_cst
  let main_v2 : IVec S8388608x8 1 := cmpf .olt main_v0 main_v1
  let main_c : IVec S_ 1 := constantI S_ 1 1#1
  let main_v3 : IVec S_ 1 := (fun x v => Host.reduce IntOp.andi x v reducesTo_S8388608x8_S_d0_1 h_S_) main_v2 main_c
  let main_v4 : FVec F S8388608x8 .f32 := Host.absf main_arg1
  let main_cst_0 : FVec F S_ .f32 := constant S_ .f32 0x7F800000#32
  let main_v5 : FVec F S8388608x8 .f32 := broadcastInDim S8388608x8 ![] bcast_S_S8388608x8 main_cst_0
  let main_v6 : IVec S8388608x8 1 := cmpf .olt main_v4 main_v5
  let main_c_1 : IVec S_ 1 := constantI S_ 1 1#1
  let main_v7 : IVec S_ 1 := (fun x v => Host.reduce IntOp.andi x v reducesTo_S8388608x8_S_d0_1 h_S_) main_v6 main_c_1
  let main_v8 : IVec S_ 1 := andi main_v3 main_v7
  let main_v9 : FVec F S8388608x1 .f32 := Host.absf main_arg2
  let main_cst_2 : FVec F S_ .f32 := constant S_ .f32 0x7F800000#32
  let main_v10 : FVec F S8388608x1 .f32 := broadcastInDim S8388608x1 ![] bcast_S_S8388608x1 main_cst_2
  let main_v11 : IVec S8388608x1 1 := cmpf .olt main_v9 main_v10
  let main_c_3 : IVec S_ 1 := constantI S_ 1 1#1
  let main_v12 : IVec S_ 1 := (fun x v => Host.reduce IntOp.andi x v reducesTo_S8388608x1_S_d0_1 h_S_) main_v11 main_c_3
  let main_v13 : IVec S_ 1 := andi main_v8 main_v12
  main_v13
-- ==== Kernel.lean ====
abbrev S8388608x8 : Shape := ⟨2, ![8388608, 8]⟩
abbrev S8388608x1 : Shape := ⟨2, ![8388608, 1]⟩
abbrev S4096x8 : Shape := ⟨2, ![4096, 8]⟩
abbrev S4096x1 : Shape := ⟨2, ![4096, 1]⟩

abbrev nBuf : Space → Nat
  | .hbm => 5
  | .vmem => 10
  | .smem => 0
  | _ => 0

abbrev bufTy : (tb : Table) → Fin (tcTables nBuf tb) → BufTy
  | .hbm, ⟨0, _⟩ => ⟨S8388608x8, .f32⟩
  | .hbm, ⟨1, _⟩ => ⟨S8388608x8, .f32⟩
  | .hbm, ⟨2, _⟩ => ⟨S8388608x1, .f32⟩
  | .hbm, ⟨3, _⟩ => ⟨S8388608x8, .f32⟩
  | .hbm, ⟨4, _⟩ => ⟨S8388608x1, .f32⟩
  | .local _ .vmem, ⟨0, _⟩ => ⟨S4096x8, .f32⟩
  | .local _ .vmem, ⟨1, _⟩ => ⟨S4096x8, .f32⟩
  | .local _ .vmem, ⟨2, _⟩ => ⟨S4096x8, .f32⟩
  | .local _ .vmem, ⟨3, _⟩ => ⟨S4096x8, .f32⟩
  | .local _ .vmem, ⟨4, _⟩ => ⟨S4096x1, .f32⟩
  | .local _ .vmem, ⟨5, _⟩ => ⟨S4096x1, .f32⟩
  | .local _ .vmem, ⟨6, _⟩ => ⟨S4096x8, .f32⟩
  | .local _ .vmem, ⟨7, _⟩ => ⟨S4096x8, .f32⟩
  | .local _ .vmem, ⟨8, _⟩ => ⟨S4096x1, .f32⟩
  | .local _ .vmem, ⟨9, _⟩ => ⟨S4096x1, .f32⟩
  | _, _ => ⟨S8388608x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x8_S4096x8_0_0 : ∀ a, (![0, 0] : Fin 2 → Nat) a + S4096x8.size a ≤ S4096x8.size a
  h_S4096x8 : 0 < S4096x8.numel
  inb_S4096x1_S4096x1_0_0 : ∀ a, (![0, 0] : Fin 2 → Nat) a + S4096x1.size a ≤ S4096x1.size a
  h_S4096x1 : 0 < S4096x1.numel
  slices_S4096x8_o0_7_S4096x1 : S4096x8.Slices ![0, 7] S4096x1
  slices_S4096x8_o0_6_S4096x1 : S4096x8.Slices ![0, 6] S4096x1
  slices_S4096x8_o0_5_S4096x1 : S4096x8.Slices ![0, 5] S4096x1
  slices_S4096x8_o0_4_S4096x1 : S4096x8.Slices ![0, 4] S4096x1
  slices_S4096x8_o0_3_S4096x1 : S4096x8.Slices ![0, 3] S4096x1
  slices_S4096x8_o0_2_S4096x1 : S4096x8.Slices ![0, 2] S4096x1
  slices_S4096x8_o0_1_S4096x1 : S4096x8.Slices ![0, 1] S4096x1
  slices_S4096x8_o0_0_S4096x1 : S4096x8.Slices ![0, 0] S4096x1
  concatenates_S4096x1_S4096x1_S4096x1_S4096x1_S4096x1_S4096x1_S4096x1_S4096x1_S4096x8_d1 : Shape.Concatenates [S4096x1, S4096x1, S4096x1, S4096x1, S4096x1, S4096x1, S4096x1, S4096x1] S4096x8 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S8388608x8.size a
  hwx0_0 : ∀ i : grid0.Coords, EltTy.bits .f32 = 32 ∨ (Rect.block (s := S8388608x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S8388608x8.size a
  hwx0_1 : ∀ i : grid0.Coords, EltTy.bits .f32 = 32 ∨ (Rect.block (s := S8388608x8) S4096x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S8388608x1.size a
  hwx0_2 : ∀ i : grid0.Coords, EltTy.bits .f32 = 32 ∨ (Rect.block (s := S8388608x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x8.size a ≤ S8388608x8.size a
  hwx0_3 : ∀ i : grid0.Coords, EltTy.bits .f32 = 32 ∨ (Rect.block (s := S8388608x8) S4096x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S8388608x1.size a
  hwx0_4 : ∀ i : grid0.Coords, EltTy.bits .f32 = 32 ∨ (Rect.block (s := S8388608x1) S4096x1.size (cc0_transform_4 i) (hinb0_4 i)).WholeWords (EltTy.packing .f32)

variable [Facts₀]

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S4096x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8388608x8 : Shape := ⟨2, ![8388608, 8]⟩
abbrev S8388608x1 : Shape := ⟨2, ![8388608, 1]⟩
abbrev S_ : Shape := ⟨0, ![]⟩

abbrev nBuf : Space → Nat
  | .hbm => 140
  | .vmem => 0
  | .smem => 0
  | _ => 0

abbrev hbmTy0_0 (i : Nat) : BufTy := match i % 128 with
  | 0 => ⟨S8388608x8, .f32⟩
  | 1 => ⟨S8388608x8, .f32⟩
  | 2 => ⟨S8388608x1, .f32⟩
  | 3 => ⟨S8388608x1, .f32⟩
  | 4 => ⟨S8388608x1, .f32⟩
  | 5 => ⟨S8388608x1, .f32⟩
  | 6 => ⟨S_, .f32⟩
  | 7 => ⟨S8388608x1, .f32⟩
  | 8 => ⟨S8388608x1, .f32⟩
  | 9 => ⟨S8388608x1, .f32⟩
  | 10 => ⟨S8388608x1, .f32⟩
  | 11 => ⟨S8388608x1, .f32⟩
  | 12 => ⟨S_, .f32⟩
  | 13 => ⟨S8388608x1, .f32⟩
  | 14 => ⟨S8388608x1, .f32⟩
  | 15 => ⟨S8388608x1, .f32⟩
  | 16 => ⟨S8388608x1, .f32⟩
  | 17 => ⟨S8388608x1, .f32⟩
  | 18 => ⟨S8388608x1, .f32⟩
  | 19 => ⟨S8388608x1, .f32⟩
  | 20 => ⟨S8388608x1, .f32⟩
  | 21 => ⟨S8388608x1, .f32⟩
  | 22 => ⟨S8388608x1, .f32⟩
  | 23 => ⟨S_, .f32⟩
  | 24 => ⟨S8388608x1, .f32⟩
  | 25 => ⟨S8388608x1, .f32⟩
  | 26 => ⟨S8388608x1, .f32⟩
  | 27 => ⟨S8388608x1, .f32⟩
  | 28 => ⟨S8388608x1, .f32⟩
  | 29 => ⟨S_, .f32⟩
  | 30 => ⟨S8388608x1, .f32⟩
  | 31 => ⟨S8388608x1, .f32⟩
  | 32 => ⟨S8388608x1, .f32⟩
  | 33 => ⟨S8388608x1, .f32⟩
  | 34 => ⟨S8388608x1, .f32⟩
  | 35 => ⟨S8388608x1, .f32⟩
  | 36 => ⟨S8388608x1, .f32⟩
  | 37 => ⟨S8388608x1, .f32⟩
  | 38 => ⟨S8388608x1, .f32⟩
  | 39 => ⟨S8388608x1, .f32⟩
  | 40 => ⟨S_, .f32⟩
  | 41 => ⟨S8388608x1, .f32⟩
  | 42 => ⟨S8388608x1, .f32⟩
  | 43 => ⟨S8388608x1, .f32⟩
  | 44 => ⟨S8388608x1, .f32⟩
  | 45 => ⟨S8388608x1, .f32⟩
  | 46 => ⟨S_, .f32⟩
  | 47 => ⟨S8388608x1, .f32⟩
  | 48 => ⟨S8388608x1, .f32⟩
  | 49 => ⟨S8388608x1, .f32⟩
  | 50 => ⟨S8388608x1, .f32⟩
  | 51 => ⟨S8388608x1, .f32⟩
  | 52 => ⟨S8388608x1, .f32⟩
  | 53 => ⟨S8388608x1, .f32⟩
  | 54 => ⟨S8388608x1, .f32⟩
  | 55 => ⟨S8388608x1, .f32⟩
  | 56 => ⟨S8388608x1, .f32⟩
  | 57 => ⟨S_, .f32⟩
  | 58 => ⟨S8388608x1, .f32⟩
  | 59 => ⟨S8388608x1, .f32⟩
  | 60 => ⟨S8388608x1, .f32⟩
  | 61 => ⟨S8388608x1, .f32⟩
  | 62 => ⟨S8388608x1, .f32⟩
  | 63 => ⟨S_, .f32⟩
  | 64 => ⟨S8388608x1, .f32⟩
  | 65 => ⟨S8388608x1, .f32⟩
  | 66 => ⟨S8388608x1, .f32⟩
  | 67 => ⟨S8388608x1, .f32⟩
  | 68 => ⟨S8388608x1, .f32⟩
  | 69 => ⟨S8388608x1, .f32⟩
  | 70 => ⟨S8388608x1, .f32⟩
  | 71 => ⟨S8388608x1, .f32⟩
  | 72 => ⟨S8388608x1, .f32⟩
  | 73 => ⟨S8388608x1, .f32⟩
  | 74 => ⟨S_, .f32⟩
  | 75 => ⟨S8388608x1, .f32⟩
  | 76 => ⟨S8388608x1, .f32⟩
  | 77 => ⟨S8388608x1, .f32⟩
  | 78 => ⟨S8388608x1, .f32⟩
  | 79 => ⟨S8388608x1, .f32⟩
  | 80 => ⟨S_, .f32⟩
  | 81 => ⟨S8388608x1, .f32⟩
  | 82 => ⟨S8388608x1, .f32⟩
  | 83 => ⟨S8388608x1, .f32⟩
  | 84 => ⟨S8388608x1, .f32⟩
  | 85 => ⟨S8388608x1, .f32⟩
  | 86 => ⟨S8388608x1, .f32⟩
  | 87 => ⟨S8388608x1, .f32⟩
  | 88 => ⟨S8388608x1, .f32⟩
  | 89 => ⟨S8388608x1, .f32⟩
  | 90 => ⟨S8388608x1, .f32⟩
  | 91 => ⟨S_, .f32⟩
  | 92 => ⟨S8388608x1, .f32⟩
  | 93 => ⟨S8388608x1, .f32⟩
  | 94 => ⟨S8388608x1, .f32⟩
  | 95 => ⟨S8388608x1, .f32⟩
  | 96 => ⟨S8388608x1, .f32⟩
  | 97 => ⟨S_, .f32⟩
  | 98 => ⟨S8388608x1, .f32⟩
  | 99 => ⟨S8388608x1, .f32⟩
  | 100 => ⟨S8388608x1, .f32⟩
  | 101 => ⟨S8388608x1, .f32⟩
  | 102 => ⟨S8388608x1, .f32⟩
  | 103 => ⟨S8388608x1, .f32⟩
  | 104 => ⟨S8388608x1, .f32⟩
  | 105 => ⟨S8388608x1, .f32⟩
  | 106 => ⟨S8388608x1, .f32⟩
  | 107 => ⟨S8388608x1, .f32⟩
  | 108 => ⟨S_, .f32⟩
  | 109 => ⟨S8388608x1, .f32⟩
  | 110 => ⟨S8388608x1, .f32⟩
  | 111 => ⟨S8388608x1, .f32⟩
  | 112 => ⟨S8388608x1, .f32⟩
  | 113 => ⟨S8388608x1, .f32⟩
  | 114 => ⟨S_, .f32⟩
  | 115 => ⟨S8388608x1, .f32⟩
  | 116 => ⟨S8388608x1, .f32⟩
  | 117 => ⟨S8388608x1, .f32⟩
  | 118 => ⟨S8388608x1, .f32⟩
  | 119 => ⟨S8388608x1, .f32⟩
  | 120 => ⟨S8388608x1, .f32⟩
  | 121 => ⟨S8388608x1, .f32⟩
  | 122 => ⟨S8388608x1, .f32⟩
  | 123 => ⟨S8388608x1, .f32⟩
  | 124 => ⟨S8388608x1, .f32⟩
  | 125 => ⟨S_, .f32⟩
  | 126 => ⟨S8388608x1, .f32⟩
  | 127 => ⟨S8388608x1, .f32⟩
  | _ => ⟨S8388608x8, .f32⟩

abbrev hbmTy0_1 (i : Nat) : BufTy := match i % 128 with
  | 0 => ⟨S8388608x1, .f32⟩
  | 1 => ⟨S8388608x1, .f32⟩
  | 2 => ⟨S8388608x1, .f32⟩
  | 3 => ⟨S_, .f32⟩
  | 4 => ⟨S8388608x1, .f32⟩
  | 5 => ⟨S8388608x1, .f32⟩
  | 6 => ⟨S8388608x1, .f32⟩
  | 7 => ⟨S8388608x1, .f32⟩
  | 8 => ⟨S8388608x1, .f32⟩
  | 9 => ⟨S8388608x1, .f32⟩
  | 10 => ⟨S8388608x1, .f32⟩
  | 11 => ⟨S8388608x8, .f32⟩
  | _ => ⟨S8388608x8, .f32⟩

abbrev hbmTy (i : Nat) : BufTy := match i / 128 with
  | 0 => hbmTy0_0 i
  | 1 => hbmTy0_1 i
  | _ => ⟨S8388608x8, .f32⟩

abbrev bufTy : (tb : Table) → Fin (tcTables nBuf tb) → BufTy
  | .hbm, ⟨i, _⟩ => hbmTy i
  | _, _ => ⟨S8388608x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_7 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_8 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_9 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_10 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_11 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_12 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_13 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_14 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩

abbrev nD : Nat := 1
abbrev τ : Topo := Topo.v7x

variable {F : FTy → Type} [FloatOps F]

class Facts₀ : Prop where
  slices_S8388608x8_S8388608x1_0_7 : S8388608x8.Slices ![0, 7] S8388608x1
  bcast_S_S8388608x1 : S_.BroadcastsInDim S8388608x1 (![] : Fin 0 → Fin S8388608x1.rank)
  slices_S8388608x8_S8388608x1_0_6 : S8388608x8.Slices ![0, 6] S8388608x1
  slices_S8388608x8_S8388608x1_0_5 : S8388608x8.Slices ![0, 5] S8388608x1
  slices_S8388608x8_S8388608x1_0_4 : S8388608x8.Slices ![0, 4] S8388608x1
  slices_S8388608x8_S8388608x1_0_3 : S8388608x8.Slices ![0, 3] S8388608x1
  slices_S8388608x8_S8388608x1_0_2 : S8388608x8.Slices ![0, 2] S8388608x1
  slices_S8388608x8_S8388608x1_0_1 : S8388608x8.Slices ![0, 1] S8388608x1
  slices_S8388608x8_S8388608x1_0_0 : S8388608x8.Slices ![0, 0] S8388608x1
  concatenates_S8388608x1_S8388608x1_S8388608x1_S8388608x1_S8388608x1_S8388608x1_S8388608x1_S8388608x1_S8388608x8_d1 : Shape.Concatenates [S8388608x1, S8388608x1, S8388608x1, S8388608x1, S8388608x1, S8388608x1, S8388608x1, S8388608x1] S8388608x8 1

variable [Facts₀]

class Facts : Prop extends Facts₀ where

variable [Facts]
-- ==== Proof.RippleCarry.lean ====
/-
  One row of the 8-bit ripple-carry adder, over any float instance.

  Both programs treat every row of the arrays independently.  On a row with operand bits `a b : Fin 8 → F .f32`
  (column 0 the most significant, column 7 the least) and incoming carry `c`, the adder walks from column 7 down to
  column 0 and at each column computes, with `x = (a + b) - (2·a)·b` (exclusive or on {0,1}),

      sum   = (x + c) - (2·x)·c        carry' = a·b + c·x

  in exactly this association.  `carryOut` is the carry leaving column 0 and `rowSum k` the sum bit of column `k`.
  Nothing here uses a law of arithmetic: the two programs spell the same operations in the same order, so the
  specification is stated over the bare operations of `FloatOps` and holds at every instance.

  The second half reads the layout operations the programs use at an index: a one-column slice of an `n × 8` array,
  the splat of a scalar, and the pointwise operations.
-/
import Idealize.ShloMosaic.Lib.ValueIdx
import Idealize.ShloMosaic.Lib.Pipeline.Value

noncomputable section

namespace Cert.Adder

open Idealize.ShloMosaic Idealize.ShloMosaic.ValueIdx

variable {F : FTy → Type} [FloatOps F]

/-- The literal `2.0`. -/
def two : F .f32 := FloatOps.ofBits .f32 0x40000000#32

/-- `a xor b` for bits held as floats: `(a + b) - (2·a)·b`. -/
def xorBit (a b : F .f32) : F .f32 := FloatOps.subf (FloatOps.addf a b) (FloatOps.mulf (FloatOps.mulf two a) b)

/-- The sum bit of a full adder: `(x + c) - (2·x)·c` with `x = xorBit a b`. -/
def sumBit (a b c : F .f32) : F .f32 :=
  FloatOps.subf (FloatOps.addf (xorBit a b) c) (FloatOps.mulf (FloatOps.mulf two (xorBit a b)) c)

/-- The carry a full adder hands on: `a·b + c·x` with `x = xorBit a b`. -/
def carryBit (a b c : F .f32) : F .f32 := FloatOps.addf (FloatOps.mulf a b) (FloatOps.mulf c (xorBit a b))

section Row
variable (a b : Fin 8 → F .f32) (c : F .f32)

/-- The carry entering column 6: what column 7 hands on. -/
def carry6 : F .f32 := carryBit (a 7) (b 7) c
/-- The carry entering column 5. -/
def carry5 : F .f32 := carryBit (a 6) (b 6) (carry6 a b c)
/-- The carry entering column 4. -/
def carry4 : F .f32 := carryBit (a 5) (b 5) (carry5 a b c)
/-- The carry entering column 3. -/
def carry3 : F .f32 := carryBit (a 4) (b 4) (carry4 a b c)
/-- The carry entering column 2. -/
def carry2 : F .f32 := carryBit (a 3) (b 3) (carry3 a b c)
/-- The carry entering column 1. -/
def carry1 : F .f32 := carryBit (a 2) (b 2) (carry2 a b c)
/-- The carry entering column 0. -/
def carry0 : F .f32 := carryBit (a 1) (b 1) (carry1 a b c)
/-- The carry leaving column 0: the row's carry-out. -/
def carryOut : F .f32 := carryBit (a 0) (b 0) (carry0 a b c)

/-- The row's eight sum bits: column `k` adds its two operand bits and the carry entering it. -/
def rowSum : Fin 8 → F .f32 := fun k => match k with
  | ⟨0, _⟩ => sumBit (a 0) (b 0) (carry0 a b c)
  | ⟨1, _⟩ => sumBit (a 1) (b 1) (carry1 a b c)
  | ⟨2, _⟩ => sumBit (a 2) (b 2) (carry2 a b c)
  | ⟨3, _⟩ => sumBit (a 3) (b 3) (carry3 a b c)
  | ⟨4, _⟩ => sumBit (a 4) (b 4) (carry4 a b c)
  | ⟨5, _⟩ => sumBit (a 5) (b 5) (carry5 a b c)
  | ⟨6, _⟩ => sumBit (a 6) (b 6) (carry6 a b c)
  | ⟨7, _⟩ => sumBit (a 7) (b 7) c

end Row

/-! ## The whole arrays: row `r` of the results from row `r` of the operands -/

/-- Row `r` of an `n × 8` array. -/
def row {n : Nat} (A : (⟨2, ![n, 8]⟩ : Shape).Idx → F .f32) (r : Fin n) : Fin 8 → F .f32 := fun k => A (ix2 r k)

/-- The sums array: entry `(r, k)` is sum bit `k` of row `r`. -/
def sums {n : Nat} (A B : (⟨2, ![n, 8]⟩ : Shape).Idx → F .f32) (C : (⟨2, ![n, 1]⟩ : Shape).Idx → F .f32) :
    (⟨2, ![n, 8]⟩ : Shape).Idx → F .f32 :=
  fun i => rowSum (row A (i 0)) (row B (i 0)) (C (ix2 (i 0) 0)) (i 1)

/-- The carry array: entry `(r, 0)` is the carry-out of row `r`. -/
def carries {n : Nat} (A B : (⟨2, ![n, 8]⟩ : Shape).Idx → F .f32) (C : (⟨2, ![n, 1]⟩ : Shape).Idx → F .f32) :
    (⟨2, ![n, 1]⟩ : Shape).Idx → F .f32 :=
  fun i => carryOut (row A (i 0)) (row B (i 0)) (C (ix2 (i 0) 0))

/-! ## Reading the programs' operations at an index -/

section Read
variable {s : Shape}

theorem addf_at (u v : FVec F s .f32) (i : s.Idx) : addf u v i = FloatOps.addf (u i) (v i) := rfl
theorem mulf_at (u v : FVec F s .f32) (i : s.Idx) : mulf u v i = FloatOps.mulf (u i) (v i) := rfl
theorem subf_at (u v : FVec F s .f32) (i : s.Idx) : subf u v i = FloatOps.subf (u i) (v i) := rfl

/-- The kernel's splat of the literal `2.0` is `two` everywhere. -/
theorem splat_two (i : s.Idx) : broadcast s (Scalar.ofBits (F := F) .f32 0x40000000#32) i = two := rfl

end Read

/-- Column `k` of an `n × 8` array, sliced out as an `n × 1` array and read at row `p`, is entry `(p, k)`. -/
theorem slice_col {n : Nat} {α : Type} (off : Fin 2 → Nat) (k : Fin 8) (h0 : off 0 = 0) (h1 : off 1 = k.val)
    (P : (⟨2, ![n, 8]⟩ : Shape).Idx → α) (h : (⟨2, ![n, 8]⟩ : Shape).Slices off ⟨2, ![n, 1]⟩) (p : Fin n) (z : Fin 1) :
    extractStridedSlice ⟨2, ![n, 1]⟩ off P h (ix2 p z) = P (ix2 p k) :=
  extractStridedSlice_apply off P h (ix2 p z) (ix2 p k) fun a => match a with
    | ⟨0, _⟩ => by show p.val = off 0 + p.val; omega
    | ⟨1, _⟩ => by show k.val = off 1 + z.val; have := z.isLt; omega

end Cert.Adder

end
-- ==== Proof.BlockRows.lean ====
/-
  What the kernel body leaves in its two output blocks, read at a block index.

  The body loads the `4096 × 8` blocks of the two operands and the `4096 × 1` block of the incoming carries, slices the
  operand blocks into their eight columns, ripples the carry from column 7 to column 0 with pointwise operations on
  `4096 × 1` columns, joins the eight sum columns into the `4096 × 8` output block and stores the last carry column as the
  `4096 × 1` output block.  Every operation acts within a row, so entry `(p, k)` of the sums block is sum bit `k` of the
  ripple-carry adder run on row `p` of the three input blocks, and entry `(p, 0)` of the carry block is that row's
  carry-out.  Stated for arbitrary blocks; the operations are read off one by one and the result is the row adder's
  term verbatim.
-/
import proofs.«162976_j23407571764128_1_alg».proof.Proof.Gen.KernelIdeal.Value
import proofs.«162976_j23407571764128_1_alg».proof.Proof.RippleCarry

noncomputable section

namespace Cert.KernelIdeal.Rows

open Cert.KernelIdeal Cert.KernelIdeal.Gen Cert.KernelIdeal.Value Cert.Adder
open Idealize.ShloMosaic Idealize.ShloMosaic.ValueIdx

variable {F : FTy → Type} [FloatOps F]

/-- The zero offsets of a whole-block access, as a constant function. -/
theorem offsets_zero : (![0, 0] : Fin 2 → Nat) = fun _ => 0 :=
  funext fun a => match a with | ⟨0, _⟩ => rfl | ⟨1, _⟩ => rfl

/-- Entry `(p, k)` of the joined block comes from row `p` of the column that holds it, -/
theorem joined_row (p : Fin 4096) (k : Fin 8) : ix3_0 (ix2 p k) = ix2 p (0 : Fin 1) := by
  funext a; match a with | ⟨0, _⟩ => rfl | ⟨1, _⟩ => rfl

/-- and that column is column `k`. -/
theorem joined_col (p : Fin 4096) (k : Fin 8) : csel3_0 (ix2 p k) = k := Fin.ext rfl

/-- Reads a tree of pointwise operations over column slices at a row, then unfolds the row adder beside it. -/
local macro "read_row" : tactic => `(tactic| (
  simp only [Cat3_0, addf_at, mulf_at, subf_at, splat_two,
    slice_col ![0, 0] 0 rfl rfl, slice_col ![0, 1] 1 rfl rfl, slice_col ![0, 2] 2 rfl rfl, slice_col ![0, 3] 3 rfl rfl,
    slice_col ![0, 4] 4 rfl rfl, slice_col ![0, 5] 5 rfl rfl, slice_col ![0, 6] 6 rfl rfl, slice_col ![0, 7] 7 rfl rfl]
  simp only [rowSum, sumBit, carryOut, carry0, carry1, carry2, carry3, carry4, carry5, carry6, carryBit, xorBit, row]))

/-- THE SUMS BLOCK at `(p, k)`: sum bit `k` of the adder on row `p` of the input blocks. -/
theorem sums_block (x0 x1 : Vec F S4096x8 .f32) (x2 : Vec F S4096x1 .f32) (p : Fin 4096) (k : Fin 8) :
    out0_3 x0 x1 x2 (ix2 p k) = rowSum (row x0 p) (row x1 p) (x2 (ix2 p 0)) k := by
  unfold out0_3
  rw [canon3_eq]
  simp only [View.ld_unit_zero (S := S4096x8) offsets_zero, View.ld_unit_zero (S := S4096x1) offsets_zero]
  show Cat3_0 x0 x1 x2 (csel3_0 (ix2 p k)) (ix3_0 (ix2 p k)) = _
  rw [joined_row, joined_col]
  match k with
  | ⟨0, _⟩ => read_row
  | ⟨1, _⟩ => read_row
  | ⟨2, _⟩ => read_row
  | ⟨3, _⟩ => read_row
  | ⟨4, _⟩ => read_row
  | ⟨5, _⟩ => read_row
  | ⟨6, _⟩ => read_row
  | ⟨7, _⟩ => read_row

/-- THE CARRY BLOCK at `(p, 0)`: the carry-out of the adder on row `p` of the input blocks. -/
theorem carry_block (x0 x1 : Vec F S4096x8 .f32) (x2 : Vec F S4096x1 .f32) (p : Fin 4096) (z : Fin 1) :
    out0_4 x0 x1 x2 (ix2 p z) = carryOut (row x0 p) (row x1 p) (x2 (ix2 p z)) := by
  unfold out0_4
  rw [View.canon_unit_zero offsets_zero]
  simp only [View.ld_unit_zero (S := S4096x8) offsets_zero, View.ld_unit_zero (S := S4096x1) offsets_zero]
  rw [lay4_0_eq]
  read_row

end Cert.KernelIdeal.Rows

end
-- ==== Proof.KernelArrays.lean ====
/-
  The kernel's two result arrays after the run, as functions of the argument arrays.

  The grid has 2048 points; at point `t` every window's block is rows `4096·t … 4096·t + 4095` of its array, all columns
  (the five index maps are `t ↦ (t, 0)`).  So row `p` of a block at point `t` is row `4096·t + p` of the array, what point
  `t` writes back is block `t` of the row adder's result on the whole arrays, and since every row lies in exactly one
  block the written blocks cover the result arrays: after the run they hold `Adder.sums` and `Adder.carries` of the
  arguments.
-/
import proofs.«162976_j23407571764128_1_alg».proof.Proof.Gen.KernelIdeal.Value
import proofs.«162976_j23407571764128_1_alg».proof.Proof.BlockRows

noncomputable section

namespace Cert.KernelIdeal.Arrays

open Cert.KernelIdeal Cert.KernelIdeal.Gen Cert.KernelIdeal.Value Cert.KernelIdeal.Rows Cert.Adder
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## Where a block sits in its array -/

/-- Every window's block index at point `t` is `(t, 0)` (decided over the 2048 points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the block at point `t` is row `4096·t + p` of the array. -/
def rowAt (t : Fin cfg0.N) (p : Fin 4096) : Fin 8388608 :=
  ⟨t.val * 4096 + p.val, by have ht : t.val < 2048 := t.isLt; have hp := p.isLt; omega⟩

theorem embA (t : Fin cfg0.N) (p : Fin 4096) (k : Fin 8) :
    ((cfg0.win 0).blk t).view.emb (ix2 p k) = ix2 (rowAt t p) k := by
  obtain ⟨e0, e1, -⟩ := block_index t
  funext a; apply Fin.ext
  match a with
  | ⟨0, _⟩ => show win0_0.index t (0 : Fin 2) * 4096 + 1 * p.val = t.val * 4096 + p.val; rw [e0]; omega
  | ⟨1, _⟩ => show win0_0.index t (1 : Fin 2) * 8 + 1 * k.val = k.val; rw [e1]; omega

theorem embB (t : Fin cfg0.N) (p : Fin 4096) (k : Fin 8) :
    ((cfg0.win 1).blk t).view.emb (ix2 p k) = ix2 (rowAt t p) k := by
  obtain ⟨-, -, e0, e1, -⟩ := block_index t
  funext a; apply Fin.ext
  match a with
  | ⟨0, _⟩ => show win0_1.index t (0 : Fin 2) * 4096 + 1 * p.val = t.val * 4096 + p.val; rw [e0]; omega
  | ⟨1, _⟩ => show win0_1.index t (1 : Fin 2) * 8 + 1 * k.val = k.val; rw [e1]; omega

theorem embC (t : Fin cfg0.N) (p : Fin 4096) (z : Fin 1) :
    ((cfg0.win 2).blk t).view.emb (ix2 p z) = ix2 (rowAt t p) z := by
  obtain ⟨-, -, -, -, e0, e1, -⟩ := block_index t
  funext a; apply Fin.ext
  match a with
  | ⟨0, _⟩ => show win0_2.index t (0 : Fin 2) * 4096 + 1 * p.val = t.val * 4096 + p.val; rw [e0]; omega
  | ⟨1, _⟩ => show win0_2.index t (1 : Fin 2) * 1 + 1 * z.val = z.val; rw [e1]; omega

theorem embS (t : Fin cfg0.N) (p : Fin 4096) (k : Fin 8) :
    ((cfg0.win 3).blk t).view.emb (ix2 p k) = ix2 (rowAt t p) k := by
  obtain ⟨-, -, -, -, -, -, e0, e1, -⟩ := block_index t
  funext a; apply Fin.ext
  match a with
  | ⟨0, _⟩ => show win0_3.index t (0 : Fin 2) * 4096 + 1 * p.val = t.val * 4096 + p.val; rw [e0]; omega
  | ⟨1, _⟩ => show win0_3.index t (1 : Fin 2) * 8 + 1 * k.val = k.val; rw [e1]; omega

theorem embK (t : Fin cfg0.N) (p : Fin 4096) (z : Fin 1) :
    ((cfg0.win 4).blk t).view.emb (ix2 p z) = ix2 (rowAt t p) z := by
  obtain ⟨-, -, -, -, -, -, -, -, e0, e1⟩ := block_index t
  funext a; apply Fin.ext
  match a with
  | ⟨0, _⟩ => show win0_4.index t (0 : Fin 2) * 4096 + 1 * p.val = t.val * 4096 + p.val; rw [e0]; omega
  | ⟨1, _⟩ => show win0_4.index t (1 : Fin 2) * 1 + 1 * z.val = z.val; rw [e1]; omega

/-- Every row of an array is row `r % 4096` of the block at point `r / 4096`. -/
theorem rowAt_div_mod (r : Fin 8388608) :
    rowAt (⟨r.val / 4096, by have := r.isLt; show r.val / 4096 < 2048; omega⟩ : Fin cfg0.N)
      (⟨r.val % 4096, by omega⟩ : Fin 4096) = r :=
  Fin.ext (by show r.val / 4096 * 4096 + r.val % 4096 = r.val; omega)

/-! ## The blocks and the arrays, by their literal types -/

/-- The first operand's block at point `t`. -/
abbrev blkA (c : Dev nD) (t : Fin cfg0.N) : Vec F S4096x8 .f32 := iblk m c 0 t
/-- The second operand's block at point `t`. -/
abbrev blkB (c : Dev nD) (t : Fin cfg0.N) : Vec F S4096x8 .f32 := iblk m c 1 t
/-- The incoming carries' block at point `t`. -/
abbrev blkC (c : Dev nD) (t : Fin cfg0.N) : Vec F S4096x1 .f32 := iblk m c 2 t
/-- The first operand array as the region finds it. -/
abbrev arrA (c : Dev nD) : Vec F S8388608x8 .f32 := V m c main_arg0
/-- The second operand array. -/
abbrev arrB (c : Dev nD) : Vec F S8388608x8 .f32 := V m c main_arg1
/-- The incoming carries. -/
abbrev arrC (c : Dev nD) : Vec F S8388608x1 .f32 := V m c main_arg2

theorem rowA (c : Dev nD) (t : Fin cfg0.N) (p : Fin 4096) : row (blkA m c t) p = row (arrA m c) (rowAt t p) := by
  funext k
  show arrA m c (((cfg0.win 0).blk t).view.emb (ix2 p k)) = arrA m c (ix2 (rowAt t p) k)
  rw [embA]

theorem rowB (c : Dev nD) (t : Fin cfg0.N) (p : Fin 4096) : row (blkB m c t) p = row (arrB m c) (rowAt t p) := by
  funext k
  show arrB m c (((cfg0.win 1).blk t).view.emb (ix2 p k)) = arrB m c (ix2 (rowAt t p) k)
  rw [embB]

theorem entryC (c : Dev nD) (t : Fin cfg0.N) (p : Fin 4096) (z : Fin 1) :
    blkC m c t (ix2 p z) = arrC m c (ix2 (rowAt t p) z) := by
  show arrC m c (((cfg0.win 2).blk t).view.emb (ix2 p z)) = arrC m c (ix2 (rowAt t p) z)
  rw [embC]

/-! ## The sums array -/

/-- WHAT POINT `t` WRITES BACK to the sums array is block `t` of the row adder's sums of the whole arrays. -/
theorem sums_flushed (c : Dev nD) (t : Fin cfg0.N) :
    (dats m 0 c).flushed 3 t = ((cfg0.win 3).blk t).view.read (Elt F) (sums (arrA m c) (arrB m c) (arrC m c)) := by
  rw [flushed3]
  funext j
  obtain ⟨p, k, rfl⟩ : ∃ (p : Fin 4096) (k : Fin 8), j = ix2 p k := ⟨j 0, j 1, eq_ix2 j⟩
  show out0_3 (blkA m c t) (blkB m c t) (blkC m c t) (ix2 p k)
    = sums (arrA m c) (arrB m c) (arrC m c) (((cfg0.win 3).blk t).view.emb (ix2 p k))
  rw [embS]
  refine (sums_block (blkA m c t) (blkB m c t) (blkC m c t) p k).trans ?_
  show _ = rowSum (row (arrA m c) (rowAt t p)) (row (arrB m c) (rowAt t p)) (arrC m c (ix2 (rowAt t p) 0)) k
  rw [rowA, rowB, entryC]

/-- Every entry of the sums array is in some point's block. -/
theorem sums_cover (i : S8388608x8.Idx) :
    ∃ t : Fin cfg0.N, (cfg0.win 3).flush t = true ∧ i ∈ ((cfg0.win 3).blk t).view.set := by
  obtain ⟨r, k, rfl⟩ : ∃ (r : Fin 8388608) (k : Fin 8), i = ix2 r k := ⟨i 0, i 1, eq_ix2 i⟩
  obtain ⟨t, p, rfl⟩ : ∃ (t : Fin cfg0.N) (p : Fin 4096), rowAt t p = r := ⟨_, _, rowAt_div_mod r⟩
  refine ⟨t, flush0_3 t, ?_⟩
  have h := View.emb_mem_set ((cfg0.win 3).blk t).view (ix2 p k)
  rw [embS] at h
  exact h

/-- THE SUMS ARRAY after the run. -/
theorem sums_final (c : Dev nD) : (dats m 0 c).arrAt 3 cfg0.N = sums (arrA m c) (arrB m c) (arrC m c) :=
  (dats m 0 c).arrAt_eq_of_cover 3 _ (fun t _ => sums_flushed m c t) sums_cover

/-! ## The carry array -/

/-- WHAT POINT `t` WRITES BACK to the carry array is block `t` of the row adder's carry-outs of the whole arrays. -/
theorem carries_flushed (c : Dev nD) (t : Fin cfg0.N) :
    (dats m 0 c).flushed 4 t = ((cfg0.win 4).blk t).view.read (Elt F) (carries (arrA m c) (arrB m c) (arrC m c)) := by
  rw [flushed4]
  funext j
  obtain ⟨p, z, rfl⟩ : ∃ (p : Fin 4096) (z : Fin 1), j = ix2 p z := ⟨j 0, j 1, eq_ix2 j⟩
  have hz : z = 0 := Subsingleton.elim _ _
  subst hz
  show out0_4 (blkA m c t) (blkB m c t) (blkC m c t) (ix2 p 0)
    = carries (arrA m c) (arrB m c) (arrC m c) (((cfg0.win 4).blk t).view.emb (ix2 p 0))
  rw [embK]
  refine (carry_block (blkA m c t) (blkB m c t) (blkC m c t) p 0).trans ?_
  show _ = carryOut (row (arrA m c) (rowAt t p)) (row (arrB m c) (rowAt t p)) (arrC m c (ix2 (rowAt t p) 0))
  rw [rowA, rowB, entryC]

/-- Every entry of the carry array is in some point's block. -/
theorem carries_cover (i : S8388608x1.Idx) :
    ∃ t : Fin cfg0.N, (cfg0.win 4).flush t = true ∧ i ∈ ((cfg0.win 4).blk t).view.set := by
  obtain ⟨r, z, rfl⟩ : ∃ (r : Fin 8388608) (z : Fin 1), i = ix2 r z := ⟨i 0, i 1, eq_ix2 i⟩
  obtain ⟨t, p, rfl⟩ : ∃ (t : Fin cfg0.N) (p : Fin 4096), rowAt t p = r := ⟨_, _, rowAt_div_mod r⟩
  refine ⟨t, flush0_4 t, ?_⟩
  have h := View.emb_mem_set ((cfg0.win 4).blk t).view (ix2 p z)
  rw [embK] at h
  exact h

/-- THE CARRY ARRAY after the run. -/
theorem carries_final (c : Dev nD) : (dats m 0 c).arrAt 4 cfg0.N = carries (arrA m c) (arrB m c) (arrC m c) :=
  (dats m 0 c).arrAt_eq_of_cover 4 _ (fun t _ => carries_flushed m c t) carries_cover

/-! ## The run, read -/

/-- The kernel's run with both result arrays named: the row adder's sums and carry-outs of the arguments; the arguments
    unchanged. -/
theorem run : θ_run defs (onTc (τ := τ) (main (F := F))) ⟨m, fun _ => 0, ρ⟩ fun r => ∀ c : Dev nD,
      r.2.mem ((c : Thread nD τ).loc main_v0_0)
        = sums (m ((c : Thread nD τ).loc main_arg0)) (m ((c : Thread nD τ).loc main_arg1)) (m ((c : Thread nD τ).loc main_arg2))
      ∧ r.2.mem ((c : Thread nD τ).loc main_v0_1)
        = carries (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (sums_final m c), (h c).2.1.trans (carries_final m c), (h c).2.2⟩)
    (run_blocks m ρ)

end Cert.KernelIdeal.Arrays

end
-- ==== Proof.ReferenceRows.lean ====
/-
  The host reference's two results, read at an index.

  The reference slices the two `8388608 × 8` operand arrays into their eight columns and ripples the carry from column 7
  to column 0 with pointwise operations on whole `8388608 × 1` columns — the same three formulas per column, in the same
  association, as the row adder — then joins the eight sum columns along the second axis.  Every operation acts within a
  row, so entry `(p, k)` of the joined array is sum bit `k` of the adder on row `p`, and entry `(p, 0)` of the last carry
  column is that row's carry-out: the two results are `Adder.sums` and `Adder.carries` of the three arguments.
-/
import proofs.«162976_j23407571764128_1_alg».proof.Proof.Gen.ReferenceIdeal.Read
import proofs.«162976_j23407571764128_1_alg».proof.Proof.RippleCarry

noncomputable section

namespace Cert.ReferenceIdeal.Rows

open Cert.ReferenceIdeal Cert.ReferenceIdeal.Gen Cert.ReferenceIdeal.Read Cert.Adder
open Idealize.ShloMosaic Idealize.ShloMosaic.ValueIdx

variable {F : FTy → Type} [FloatOps F]

/-- The host's scalar literal `2.0`, broadcast to a column, is `two` at every row. -/
theorem host_two (h : S_.BroadcastsInDim S8388608x1 (![] : Fin 0 → Fin 2)) (i : S8388608x1.Idx) :
    broadcastInDim S8388608x1 (![] : Fin 0 → Fin 2) h (constant (F := F) S_ .f32 0x40000000#32 : S_.Idx → Elt F .f32) i = two :=
  (broadcastInDim_apply (![] : Fin 0 → Fin 2) h (constant (F := F) S_ .f32 0x40000000#32 : S_.Idx → Elt F .f32) i
    (fun a => a.elim0) (fun a => a.elim0)).trans rfl

/-- Opens every stage of the host program down to the arguments, reads the pointwise operations, the column slices and
    the splats at a row, then unfolds the row adder beside the result. -/
local macro "read_row" : tactic => `(tactic| (
  simp only [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_v23,
    val_main_v24, val_main_v25, val_main_v26, val_main_v27, val_main_v28, val_main_v29, val_main_v30, val_main_v31,
    val_main_v32, val_main_v33, val_main_v34, val_main_v35, val_main_v36, val_main_v37, val_main_v38, val_main_v39,
    val_main_v40, val_main_v41, val_main_v42, val_main_v43, val_main_v44, val_main_v45, val_main_v46, val_main_v47,
    val_main_v48, val_main_v49, val_main_v50, val_main_v51, val_main_v52, val_main_v53, val_main_v54, val_main_v55,
    val_main_v56, val_main_v57, val_main_v58, val_main_v59, val_main_v60, val_main_v61, val_main_v62, val_main_v63,
    val_main_v64, val_main_v65, val_main_v66, val_main_v67, val_main_v68, val_main_v69, val_main_v70, val_main_v71,
    val_main_v72, val_main_v73, val_main_v74, val_main_v75, val_main_v76, val_main_v77, val_main_v78, val_main_v79,
    val_main_v80, val_main_v81, val_main_v82, val_main_v83, val_main_v84, val_main_v85, val_main_v86, val_main_v87,
    val_main_v88, val_main_v89, val_main_v90, val_main_v91, val_main_v92, val_main_v93, val_main_v94, val_main_v95,
    val_main_v96, val_main_v97, val_main_v98, val_main_v99, val_main_v100, val_main_v101, val_main_v102, val_main_v103,
    val_main_v104, val_main_v105, val_main_v106, val_main_v107, val_main_v108, val_main_v109, val_main_v110, val_main_v111,
    val_main_v112, val_main_v113, val_main_v114, val_main_v115, val_main_v116, val_main_v117, val_main_v118, val_main_v119,
    val_main_cst, val_main_cst_0, val_main_cst_1, val_main_cst_2, val_main_cst_3, val_main_cst_4, val_main_cst_5,
    val_main_cst_6, val_main_cst_7, val_main_cst_8, val_main_cst_9, val_main_cst_10, val_main_cst_11, val_main_cst_12,
    val_main_cst_13, val_main_cst_14,
    addf_at, mulf_at, subf_at, host_two,
    slice_col ![0, 0] 0 rfl rfl, slice_col ![0, 1] 1 rfl rfl, slice_col ![0, 2] 2 rfl rfl, slice_col ![0, 3] 3 rfl rfl,
    slice_col ![0, 4] 4 rfl rfl, slice_col ![0, 5] 5 rfl rfl, slice_col ![0, 6] 6 rfl rfl, slice_col ![0, 7] 7 rfl rfl]
  simp only [rowSum, sumBit, carryOut, carry0, carry1, carry2, carry3, carry4, carry5, carry6, carryBit, xorBit, row]))

/-- The eight sum columns the reference joins, by the column of the result each becomes. -/
def sumCols (x0 x1 : S8388608x8.Idx → Elt F .f32) (x2 : S8388608x1.Idx → Elt F .f32) : Fin 8 → (S8388608x1.Idx → Elt F .f32) :=
  fun n => match n with
  | ⟨0, _⟩ => val_main_v116 (F := F) x0 x1 x2
  | ⟨1, _⟩ => val_main_v101 (F := F) x0 x1 x2
  | ⟨2, _⟩ => val_main_v86 (F := F) x0 x1 x2
  | ⟨3, _⟩ => val_main_v71 (F := F) x0 x1 x2
  | ⟨4, _⟩ => val_main_v56 (F := F) x0 x1 x2
  | ⟨5, _⟩ => val_main_v41 (F := F) x0 x1 x2
  | ⟨6, _⟩ => val_main_v26 (F := F) x0 x1 x2
  | ⟨7, _⟩ => val_main_v11 (F := F) x0 x1 x2

/-- Entry `(p, k)` of the joined array is row `p` of sum column `k`. -/
theorem joined_at (x0 x1 : S8388608x8.Idx → Elt F .f32) (x2 : S8388608x1.Idx → Elt F .f32) (p : Fin 8388608) (k : Fin 8) :
    val_main_v120 (F := F) x0 x1 x2 (ix2 p k) = sumCols x0 x1 x2 k (ix2 p (0 : Fin 1)) := by
  unfold val_main_v120
  show concatenate S8388608x8 1 (List.ofFn fun n : Fin 8 => (⟨S8388608x1, sumCols x0 x1 x2 n⟩ : (s : Shape) × (s.Idx → _))) _ (ix2 p k) = _
  exact concatenate_ofFn_apply (t := S8388608x8) (s₁ := S8388608x1) (1 : Fin 2) (sumCols x0 x1 x2) _ rfl 1 rfl (ix2 p k) k
    (by show k.val / 1 = k.val; omega) (ix2 p (0 : Fin 1)) (by show (0 : Nat) = k.val % 1; omega)
    (fun b hb => by match b with | ⟨0, _⟩ => rfl | ⟨1, _⟩ => exact absurd rfl hb)

/-- THE SUMS RESULT is the row adder's sums of the arguments. -/
theorem sums_eq (x0 x1 : S8388608x8.Idx → Elt F .f32) (x2 : S8388608x1.Idx → Elt F .f32) :
    val_main_v120 (F := F) x0 x1 x2 = sums x0 x1 x2 := by
  funext i
  obtain ⟨p, k, rfl⟩ : ∃ (p : Fin 8388608) (k : Fin 8), i = ix2 p k := ⟨i 0, i 1, eq_ix2 i⟩
  rw [joined_at]
  show _ = rowSum (row x0 p) (row x1 p) (x2 (ix2 p 0)) k
  match k with
  | ⟨0, _⟩ => show val_main_v116 (F := F) x0 x1 x2 (ix2 p 0) = _; read_row
  | ⟨1, _⟩ => show val_main_v101 (F := F) x0 x1 x2 (ix2 p 0) = _; read_row
  | ⟨2, _⟩ => show val_main_v86 (F := F) x0 x1 x2 (ix2 p 0) = _; read_row
  | ⟨3, _⟩ => show val_main_v71 (F := F) x0 x1 x2 (ix2 p 0) = _; read_row
  | ⟨4, _⟩ => show val_main_v56 (F := F) x0 x1 x2 (ix2 p 0) = _; read_row
  | ⟨5, _⟩ => show val_main_v41 (F := F) x0 x1 x2 (ix2 p 0) = _; read_row
  | ⟨6, _⟩ => show val_main_v26 (F := F) x0 x1 x2 (ix2 p 0) = _; read_row
  | ⟨7, _⟩ => show val_main_v11 (F := F) x0 x1 x2 (ix2 p 0) = _; read_row

/-- THE CARRY RESULT is the row adder's carry-outs of the arguments. -/
theorem carries_eq (x0 x1 : S8388608x8.Idx → Elt F .f32) (x2 : S8388608x1.Idx → Elt F .f32) :
    val_main_v119 (F := F) x0 x1 x2 = carries x0 x1 x2 := by
  funext i
  obtain ⟨p, z, rfl⟩ : ∃ (p : Fin 8388608) (z : Fin 1), i = ix2 p z := ⟨i 0, i 1, eq_ix2 i⟩
  have hz : z = 0 := Subsingleton.elim _ _
  subst hz
  show _ = carryOut (row x0 p) (row x1 p) (x2 (ix2 p 0))
  read_row

end Cert.ReferenceIdeal.Rows

end
-- ==== Proof.lean ====
/-
  The kernel and its jnp reference are one 8-bit ripple-carry adder applied to every row.

  The arguments are two `8388608 × 8` arrays of operand bits (column 0 most significant) and an `8388608 × 1` array of
  incoming carries; the results are the `8388608 × 8` array of sum bits and the `8388608 × 1` array of carry-outs.  With
  `x = (a + b) - (2·a)·b`, each column computes `sum = (x + c) - (2·x)·c` and hands on `carry' = a·b + c·x`, from column 7
  to column 0 (Proof/RippleCarry.lean).  The kernel does this on blocks of 4096 rows at 2048 grid points
  (Proof/BlockRows.lean: one block; Proof/KernelArrays.lean: the blocks tile the arrays), the reference on whole columns
  (Proof/ReferenceRows.lean).  Both spell the same operations in the same order and association, with the same literal
  `2.0`, so each result is the same term of the arguments at every index and no law of arithmetic — hence no use of the
  inputs' finiteness — is needed: the two result arrays are `Adder.sums` and `Adder.carries` of the arguments on both
  sides.  The idealization rewrote nothing, so the kernel's idealized program is its own text read over the extended
  reals and that conjunct is trivial.  The frames are the runs themselves with the result clauses dropped.
-/
import proofs.«162976_j23407571764128_1_alg».proof.Defs
import proofs.«162976_j23407571764128_1_alg».proof.Proof.Gen.Kernel
import proofs.«162976_j23407571764128_1_alg».proof.Proof.Gen.Kernel.Skeleton
import proofs.«162976_j23407571764128_1_alg».proof.Proof.Gen.Kernel.Launch
import proofs.«162976_j23407571764128_1_alg».proof.Proof.Gen.Kernel.Points
import proofs.«162976_j23407571764128_1_alg».proof.Proof.Gen.Kernel.Frame
import proofs.«162976_j23407571764128_1_alg».proof.Proof.Gen.KernelIdeal
import proofs.«162976_j23407571764128_1_alg».proof.Proof.Gen.KernelIdeal.Skeleton
import proofs.«162976_j23407571764128_1_alg».proof.Proof.Gen.KernelIdeal.Launch
import proofs.«162976_j23407571764128_1_alg».proof.Proof.Gen.KernelIdeal.Points
import proofs.«162976_j23407571764128_1_alg».proof.Proof.Gen.KernelIdeal.Frame
import proofs.«162976_j23407571764128_1_alg».proof.Proof.Gen.ReferenceIdeal
import proofs.«162976_j23407571764128_1_alg».proof.Proof.Gen.Pre_finite_inputs
import proofs.«162976_j23407571764128_1_alg».proof.Proof.Gen.KernelIdeal.Value
import proofs.«162976_j23407571764128_1_alg».proof.Proof.Gen.ReferenceIdeal.Run
import proofs.«162976_j23407571764128_1_alg».proof.Proof.Gen.ReferenceIdeal.Read
import proofs.«162976_j23407571764128_1_alg».proof.Proof.KernelArrays
import proofs.«162976_j23407571764128_1_alg».proof.Proof.ReferenceRows
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its two result clauses dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the three arguments, both programs end with the row adder's sums and carry-outs of
    those arguments in their two results. -/
theorem algebraic : Cert.algebraic_KernelIdeal_ReferenceIdeal := by
  intro m ρ m' ρ' _ hagree
  refine ⟨_, _, Cert.KernelIdeal.Arrays.run (F := Ideal) m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v120_eq, Cert.ReferenceIdeal.Rows.sums_eq,
      (hagree c).1, (hagree c).2.1, (hagree c).2.2]
  · rw [(h c).2.1, Cert.ReferenceIdeal.Read.val_main_v119_eq, Cert.ReferenceIdeal.Rows.carries_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
